-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x16384 : Shape := ⟨2, ![32, 16384]⟩
abbrev S32x256x128 : Shape := ⟨3, ![32, 256, 128]⟩
abbrev S_ : Shape := ⟨0, ![]⟩

class Facts : Prop where
  bcast_S_S32x256x128 : S_.BroadcastsInDim S32x256x128 (![] : Fin 0 → Fin S32x256x128.rank)
  reducesTo_S32x256x128_S_d0_1_2 : S32x256x128.ReducesTo [0, 1, 2] S_
  h_S_ : 0 < S_.numel
  bcast_S_S32x16384 : S_.BroadcastsInDim S32x16384 (![] : Fin 0 → Fin S32x16384.rank)
  reducesTo_S32x16384_S_d0_1 : S32x16384.ReducesTo [0, 1] S_

variable [Facts]

def fn {F : FTy → Type} [FloatOps F] (main_arg0 : IVec S32x16384 32) (main_arg1 : FVec F S32x256x128 .f32) : IVec S_ 1 :=
  let main_v0 : FVec F S32x256x128 .f32 := Host.absf main_arg1
  let main_cst : FVec F S_ .f32 := constant S_ .f32 0x7F800000#32
  let main_v1 : FVec F S32x256x128 .f32 := broadcastInDim S32x256x128 ![] bcast_S_S32x256x128 main_cst
  let main_v2 : IVec S32x256x128 1 := cmpf .olt main_v0 main_v1
  let main_c : IVec S_ 1 := constantI S_ 1 1#1
  let main_v3 : IVec S_ 1 := (fun x v => Host.reduce IntOp.andi x v reducesTo_S32x256x128_S_d0_1_2 h_S_) main_v2 main_c
  let main_c_0 : IVec S_ 32 := constantI S_ 32 0#32
  let main_v4 : IVec S32x16384 32 := broadcastInDim S32x16384 ![] bcast_S_S32x16384 main_c_0
  let main_v5 : IVec S32x16384 1 := cmpi .sge main_arg0 main_v4
  let main_c_1 : IVec S_ 1 := constantI S_ 1 1#1
  let main_v6 : IVec S_ 1 := (fun x v => Host.reduce IntOp.andi x v reducesTo_S32x16384_S_d0_1 h_S_) main_v5 main_c_1
  let main_v7 : IVec S_ 1 := andi main_v3 main_v6
  let main_c_2 : IVec S_ 32 := constantI S_ 32 256#32
  let main_v8 : IVec S32x16384 32 := broadcastInDim S32x16384 ![] bcast_S_S32x16384 main_c_2
  let main_v9 : IVec S32x16384 1 := cmpi .slt main_arg0 main_v8
  let main_c_3 : IVec S_ 1 := constantI S_ 1 1#1
  let main_v10 : IVec S_ 1 := (fun x v => Host.reduce IntOp.andi x v reducesTo_S32x16384_S_d0_1 h_S_) main_v9 main_c_3
  let main_v11 : IVec S_ 1 := andi main_v7 main_v10
  main_v11
-- ==== Kernel.lean ====
abbrev S32x16384 : Shape := ⟨2, ![32, 16384]⟩
abbrev S32x256x128 : Shape := ⟨3, ![32, 256, 128]⟩
abbrev S32x256x256 : Shape := ⟨3, ![32, 256, 256]⟩
abbrev S16384x4096 : Shape := ⟨2, ![16384, 4096]⟩
abbrev S8x2048 : Shape := ⟨2, ![8, 2048]⟩
abbrev S8x256x256 : Shape := ⟨3, ![8, 256, 256]⟩
abbrev S2048x1024 : Shape := ⟨2, ![2048, 1024]⟩
abbrev S2048x256 : Shape := ⟨2, ![2048, 256]⟩
abbrev S2048x8 : Shape := ⟨2, ![2048, 8]⟩
abbrev S2048x1 : Shape := ⟨2, ![2048, 1]⟩
abbrev S1x256x256 : Shape := ⟨3, ![1, 256, 256]⟩
abbrev S256x256 : Shape := ⟨2, ![256, 256]⟩
abbrev S2048x128 : Shape := ⟨2, ![2048, 128]⟩

abbrev nBuf : Space → Nat
  | .hbm => 8
  | .vmem => 6
  | .smem => 0
  | _ => 0

abbrev bufTy : (tb : Table) → Fin (tcTables nBuf tb) → BufTy
  | .hbm, ⟨0, _⟩ => ⟨S32x16384, .i32⟩
  | .hbm, ⟨1, _⟩ => ⟨S32x256x128, .f32⟩
  | .hbm, ⟨2, _⟩ => ⟨S32x256x128, .bf16⟩
  | .hbm, ⟨3, _⟩ => ⟨S32x256x128, .f32⟩
  | .hbm, ⟨4, _⟩ => ⟨S32x256x128, .f32⟩
  | .hbm, ⟨5, _⟩ => ⟨S32x256x128, .bf16⟩
  | .hbm, ⟨6, _⟩ => ⟨S32x256x256, .bf16⟩
  | .hbm, ⟨7, _⟩ => ⟨S16384x4096, .f32⟩
  | .local _ .vmem, ⟨0, _⟩ => ⟨S8x2048, .i32⟩
  | .local _ .vmem, ⟨1, _⟩ => ⟨S8x2048, .i32⟩
  | .local _ .vmem, ⟨2, _⟩ => ⟨S8x256x256, .bf16⟩
  | .local _ .vmem, ⟨3, _⟩ => ⟨S8x256x256, .bf16⟩
  | .local _ .vmem, ⟨4, _⟩ => ⟨S2048x1024, .f32⟩
  | .local _ .vmem, ⟨5, _⟩ => ⟨S2048x1024, .f32⟩
  | _, _ => ⟨S32x16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bitsLt_bf16_f32 : FTy.bits .bf16 < FTy.bits .f32
  concatenates_S32x256x128_S32x256x128_S32x256x256_d2 : Shape.Concatenates [S32x256x128, S32x256x128] S32x256x256 2
  iota_S2048x256_d1_w32 : S2048x256.Iotas .tc 32 [1]
  inb_S8x2048_S8x2048_0_0 : ∀ a, (![0, 0] : Fin 2 → Nat) a + S8x2048.size a ≤ S8x2048.size a
  h_S8x2048 : 0 < S8x2048.numel
  transposes_S8x2048_p1_0_S2048x8 : S8x2048.Transposes [1, 0] S2048x8
  slices_S2048x8_o0_0_S2048x1 : S2048x8.Slices ![0, 0] S2048x1
  broadcasts_S2048x1_S2048x256 : S2048x1.Broadcasts S2048x256
  natLt_1_32 : 1 < 32
  inb_S8x256x256_S1x256x256_0_0_0 : ∀ a, (![0, 0, 0] : Fin 3 → Nat) a + S1x256x256.size a ≤ S8x256x256.size a
  h_S1x256x256 : 0 < S1x256x256.numel
  shapeCasts_S1x256x256_S256x256 : S1x256x256.ShapeCasts S256x256
  slices_S2048x256_o0_0_S2048x128 : S2048x256.Slices ![0, 0] S2048x128
  slices_S2048x256_o0_128_S2048x128 : S2048x256.Slices ![0, 128] S2048x128
  inb_S2048x1024_S2048x128_0_0 : ∀ a, (![0, 0] : Fin 2 → Nat) a + S2048x128.size a ≤ S2048x1024.size a
  h_S2048x128 : 0 < S2048x128.numel
  slices_S2048x8_o0_1_S2048x1 : S2048x8.Slices ![0, 1] S2048x1
  inb_S8x256x256_S1x256x256_1_0_0 : ∀ a, (![1, 0, 0] : Fin 3 → Nat) a + S1x256x256.size a ≤ S8x256x256.size a
  inb_S2048x1024_S2048x128_0_128 : ∀ a, (![0, 128] : Fin 2 → Nat) a + S2048x128.size a ≤ S2048x1024.size a
  slices_S2048x8_o0_2_S2048x1 : S2048x8.Slices ![0, 2] S2048x1
  inb_S8x256x256_S1x256x256_2_0_0 : ∀ a, (![2, 0, 0] : Fin 3 → Nat) a + S1x256x256.size a ≤ S8x256x256.size a
  inb_S2048x1024_S2048x128_0_256 : ∀ a, (![0, 256] : Fin 2 → Nat) a + S2048x128.size a ≤ S2048x1024.size a
  slices_S2048x8_o0_3_S2048x1 : S2048x8.Slices ![0, 3] S2048x1
  inb_S8x256x256_S1x256x256_3_0_0 : ∀ a, (![3, 0, 0] : Fin 3 → Nat) a + S1x256x256.size a ≤ S8x256x256.size a
  inb_S2048x1024_S2048x128_0_384 : ∀ a, (![0, 384] : Fin 2 → Nat) a + S2048x128.size a ≤ S2048x1024.size a
  slices_S2048x8_o0_4_S2048x1 : S2048x8.Slices ![0, 4] S2048x1
  inb_S8x256x256_S1x256x256_4_0_0 : ∀ a, (![4, 0, 0] : Fin 3 → Nat) a + S1x256x256.size a ≤ S8x256x256.size a
  inb_S2048x1024_S2048x128_0_512 : ∀ a, (![0, 512] : Fin 2 → Nat) a + S2048x128.size a ≤ S2048x1024.size a
  slices_S2048x8_o0_5_S2048x1 : S2048x8.Slices ![0, 5] S2048x1
  inb_S8x256x256_S1x256x256_5_0_0 : ∀ a, (![5, 0, 0] : Fin 3 → Nat) a + S1x256x256.size a ≤ S8x256x256.size a
  inb_S2048x1024_S2048x128_0_640 : ∀ a, (![0, 640] : Fin 2 → Nat) a + S2048x128.size a ≤ S2048x1024.size a
  slices_S2048x8_o0_6_S2048x1 : S2048x8.Slices ![0, 6] S2048x1
  inb_S8x256x256_S1x256x256_6_0_0 : ∀ a, (![6, 0, 0] : Fin 3 → Nat) a + S1x256x256.size a ≤ S8x256x256.size a
  inb_S2048x1024_S2048x128_0_768 : ∀ a, (![0, 768] : Fin 2 → Nat) a + S2048x128.size a ≤ S2048x1024.size a
  slices_S2048x8_o0_7_S2048x1 : S2048x8.Slices ![0, 7] S2048x1
  inb_S8x256x256_S1x256x256_7_0_0 : ∀ a, (![7, 0, 0] : Fin 3 → Nat) a + S1x256x256.size a ≤ S8x256x256.size a
  inb_S2048x1024_S2048x128_0_896 : ∀ a, (![0, 896] : Fin 2 → Nat) a + S2048x128.size a ≤ S2048x1024.size a
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2048.size a ≤ S32x16384.size a
  hwx0_0 : ∀ i : grid0.Coords, EltTy.bits .i32 = 32 ∨ (Rect.block (s := S32x16384) S8x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x256.size a ≤ S32x256x256.size a
  hwx0_1 : ∀ i : grid0.Coords, EltTy.bits .bf16 = 32 ∨ (Rect.block (s := S32x256x256) S8x256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S16384x4096.size a
  hwx0_2 : ∀ i : grid0.Coords, EltTy.bits .f32 = 32 ∨ (Rect.block (s := S16384x4096) S2048x1024.size (cc0_transform_2 i) (hinb0_2 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S8x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S8x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x16384 : Shape := ⟨2, ![32, 16384]⟩
abbrev S32x256x128 : Shape := ⟨3, ![32, 256, 128]⟩
abbrev S32 : Shape := ⟨1, ![32]⟩
abbrev S32x1 : Shape := ⟨2, ![32, 1]⟩
abbrev S_ : Shape := ⟨0, ![]⟩
abbrev S32x16384x1 : Shape := ⟨3, ![32, 16384, 1]⟩
abbrev S32x16384x2 : Shape := ⟨3, ![32, 16384, 2]⟩
abbrev S32x16384x128 : Shape := ⟨3, ![32, 16384, 128]⟩
abbrev S16384x32x128 : Shape := ⟨3, ![16384, 32, 128]⟩
abbrev S16384x4096 : Shape := ⟨2, ![16384, 4096]⟩

abbrev nBuf : Space → Nat
  | .hbm => 25
  | .vmem => 0
  | .smem => 0
  | _ => 0

abbrev bufTy : (tb : Table) → Fin (tcTables nBuf tb) → BufTy
  | .hbm, ⟨0, _⟩ => ⟨S32x16384, .i32⟩
  | .hbm, ⟨1, _⟩ => ⟨S32x256x128, .f32⟩
  | .hbm, ⟨2, _⟩ => ⟨S32, .i32⟩
  | .hbm, ⟨3, _⟩ => ⟨S32x1, .i32⟩
  | .hbm, ⟨4, _⟩ => ⟨S_, .i32⟩
  | .hbm, ⟨5, _⟩ => ⟨S32x1, .i32⟩
  | .hbm, ⟨6, _⟩ => ⟨S32x1, .i1⟩
  | .hbm, ⟨7, _⟩ => ⟨S_, .i32⟩
  | .hbm, ⟨8, _⟩ => ⟨S32x1, .i32⟩
  | .hbm, ⟨9, _⟩ => ⟨S32x1, .i32⟩
  | .hbm, ⟨10, _⟩ => ⟨S32x1, .i32⟩
  | .hbm, ⟨11, _⟩ => ⟨S_, .i32⟩
  | .hbm, ⟨12, _⟩ => ⟨S32x16384, .i32⟩
  | .hbm, ⟨13, _⟩ => ⟨S32x16384, .i1⟩
  | .hbm, ⟨14, _⟩ => ⟨S_, .i32⟩
  | .hbm, ⟨15, _⟩ => ⟨S32x16384, .i32⟩
  | .hbm, ⟨16, _⟩ => ⟨S32x16384, .i32⟩
  | .hbm, ⟨17, _⟩ => ⟨S32x16384, .i32⟩
  | .hbm, ⟨18, _⟩ => ⟨S32x16384, .i32⟩
  | .hbm, ⟨19, _⟩ => ⟨S32x16384x1, .i32⟩
  | .hbm, ⟨20, _⟩ => ⟨S32x16384x1, .i32⟩
  | .hbm, ⟨21, _⟩ => ⟨S32x16384x2, .i32⟩
  | .hbm, ⟨22, _⟩ => ⟨S32x16384x128, .f32⟩
  | .hbm, ⟨23, _⟩ => ⟨S16384x32x128, .f32⟩
  | .hbm, ⟨24, _⟩ => ⟨S16384x4096, .f32⟩
  | _, _ => ⟨S32x16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]

class Facts₀ : Prop where
  bcast_S32_S32x1_0 : S32.BroadcastsInDim S32x1 (![0] : Fin 1 → Fin S32x1.rank)
  bcast_S_S32x1 : S_.BroadcastsInDim S32x1 (![] : Fin 0 → Fin S32x1.rank)
  bcast_S_S32x16384 : S_.BroadcastsInDim S32x16384 (![] : Fin 0 → Fin S32x16384.rank)
  bcast_S32x1_S32x16384_0_1 : S32x1.BroadcastsInDim S32x16384 (![0, 1] : Fin 2 → Fin S32x16384.rank)
  bcast_S32x16384_S32x16384x1_0_1 : S32x16384.BroadcastsInDim S32x16384x1 (![0, 1] : Fin 2 → Fin S32x16384x1.rank)
  concatenates_S32x16384x1_S32x16384x1_S32x16384x2_d2 : Shape.Concatenates [S32x16384x1, S32x16384x1] S32x16384x2 2
  transposes_S32x16384x128_S16384x32x128_1_0_2 : S32x16384x128.Transposes [1, 0, 2] S16384x32x128
  shapeCasts_S16384x32x128_S16384x4096 : S16384x32x128.ShapeCasts S16384x4096
  gather_S32x256x128_S32x16384x2_S32x16384x128_2_01_n_n_01_2_11128_wf : GatherDims.WF S32x256x128 S32x16384x2 S32x16384x128 [2] [0, 1] [] [0, 1] [] 2 ![1, 1, 128]

variable [Facts₀]

def gather_S32x256x128_S32x16384x2_S32x16384x128_2_01_n_n_01_2_11128 : GatherDims S32x256x128 S32x16384x2 S32x16384x128 where
  offsetDims := [2]
  collapsedSliceDims := [0, 1]
  operandBatchingDims := []
  startIndicesBatchingDims := []
  startIndexMap := [0, 1]
  indexVectorDim := 2
  sliceSizes := ![1, 1, 128]
  wf := gather_S32x256x128_S32x16384x2_S32x16384x128_2_01_n_n_01_2_11128_wf

class Facts : Prop extends Facts₀ where

variable [Facts]
-- ==== Proof.LibKeepdims.lean ====
/-
  Column vectors made by `keepdims`: a length-`a` vector viewed as an `[a, 1]` column, and such a column broadcast along
  the rows of an `[a, b]` array. Read at an index by coordinates, the column holds the vector's entry of its row, and the
  broadcast holds the column's entry of its row at every position of the row.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibPlainMatmul.lean ====
/-
  A plain matrix product read at an index.

  `DotDims.plain M K N` contracts axis 1 of an `M × K` operand with axis 0 of a `K × N` operand, with no batch
  axis. At the ideal values a `tpu.matmul` with these dimension numbers into the zero accumulator is, at
  `(i, j)`, the sum over `k : Fin K` of `l (i, k) * r (k, j)` on the extended reals: the library's sum over the
  contraction shape's indices (`Ideal.matmul_constant_zero_apply`) re-indexed by the one coordinate of that shape
  (`ValueIdx.contrEquiv1`), the operand indices read off the dimension numbers.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The left operand's index at result `j` and contraction coordinate `k` is `(j 0, k)`. -/
theorem plain_lhsIdx (M K N : ℕ) (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at result `j` and contraction coordinate `k` is `(k, j 1)`. -/
theorem plain_rhsIdx (M K N : ℕ) (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- A plain matmul into the zero accumulator, at an index: the sum of the products along the contracted axis. -/
theorem matmul_plain_zero_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) := by
  rw [Ideal.matmul_constant_zero_apply, ← Equiv.sum_comp (contrEquiv1 (DotDims.plain M K N) K rfl rfl).symm]
  refine Finset.sum_congr rfl fun k _ => ?_
  rw [plain_lhsIdx, plain_rhsIdx]
  rfl

end Cert.Lib

end
-- ==== Proof.Select.lean ====
/-
  Selecting one entry of a table by a one-hot row.

  A row of 256 weights that is one at the position an index word names (read as a signed integer) and zero at every other
  position, multiplied entry by entry with a table of 256 extended reals and summed, is the table's entry at that
  position: every other term is `0 * x = 0` on the extended reals (also at an infinite `x`), and the one left is `1 * x = x`.
-/
import Idealize.ShloMosaic.PureOps.Ideal

noncomputable section

namespace Cert.Sel

/-- The weight the one-hot row of the index word `a` gives position `k`: one where `a`, read signed, is `k`, else zero. -/
def weight (a : BitVec 32) (k : Fin 256) : EReal := if a.toInt = (k.val : Int) then 1 else 0

/-- The one-hot row of `a` against the table `f`: the sum over the 256 positions of weight times entry. -/
def selSum (a : BitVec 32) (f : Fin 256 → EReal) : EReal := ∑ k : Fin 256, weight a k * f k

/-- For an index word in `[0, 256)` that sum is the table's entry at the word. -/
theorem selSum_eq (a : BitVec 32) (f : Fin 256 → EReal) (h0 : 0 ≤ a.toInt) (h1 : a.toInt < 256) :
    selSum a f = f ⟨a.toInt.toNat, by omega⟩ := by
  unfold selSum
  rw [Finset.sum_eq_single (⟨a.toInt.toNat, by omega⟩ : Fin 256)]
  · unfold weight
    rw [if_pos (by show a.toInt = ((a.toInt.toNat : Nat) : Int); omega)]
    exact one_mul _
  · intro k _ hk
    unfold weight
    rw [if_neg, zero_mul]
    intro h
    apply hk
    apply Fin.ext
    show k.val = a.toInt.toNat
    omega
  · intro h
    exact absurd (Finset.mem_univ _) h

end Cert.Sel

end
-- ==== Proof.OneHot.lean ====
/-
  One codebook's block of the result, entry by entry.

  The body turns the index words of one codebook into a one-hot matrix: row `t` has a one at the column whose number
  equals the index word of vector `t` (both converted to floats, which at the ideal values are the integers
  themselves, so the comparison is the comparison of the integers), zeros elsewhere. That matrix times the codebook's
  `256 × 256` table (the centroids' first halves in columns `0..127`, second halves in columns `128..255`) gives, in
  row `t` and column `j`, the one-hot row against column `j` of the table; the body then adds column `d` and column
  `128 + d`.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«429183_j3255585210642_3_alg».proof.Proof.LibKeepdims
import proofs.«429183_j3255585210642_3_alg».proof.Proof.LibPlainMatmul
import proofs.«429183_j3255585210642_3_alg».proof.Proof.Select

noncomputable section

namespace Cert.OneHot

open Idealize.ShloMosaic Idealize.ShloMosaic.ValueIdx Cert.Sel

abbrev S8x2048 : Shape := ⟨2, ![8, 2048]⟩
abbrev S2048x8 : Shape := ⟨2, ![2048, 8]⟩
abbrev S2048x1 : Shape := ⟨2, ![2048, 1]⟩
abbrev S2048x256 : Shape := ⟨2, ![2048, 256]⟩
abbrev S2048x128 : Shape := ⟨2, ![2048, 128]⟩
abbrev S1x256x256 : Shape := ⟨3, ![1, 256, 256]⟩
abbrev S256x256 : Shape := ⟨2, ![256, 256]⟩

/-- A column number below 256, as a 32-bit word read signed, is itself. -/
theorem toInt_ofNat_col (k : Fin 256) : (BitVec.ofNat 32 k.val).toInt = (k.val : Int) := by
  have hk := k.isLt
  rw [BitVec.toInt_eq_toNat_cond, BitVec.toNat_ofNat]
  have e : k.val % 2 ^ 32 = k.val := Nat.mod_eq_of_lt (by omega)
  rw [e, if_pos (by omega)]

/-- The one-hot matrix of codebook `o` of the block, at row `t` and column `k`: the weight of column `k` for the index word
    of codebook `o` and vector `t`. -/
theorem onehot_apply (o : ℕ) (ho : o < 8) (v2 : IVec S8x2048 32)
    (htr : S8x2048.Transposes [1, 0] S2048x8) (hs : S2048x8.Slices ![0, o] S2048x1)
    (hb : S2048x1.Broadcasts S2048x256) (hio : S2048x256.Iotas .tc 32 [1])
    (h132 : 1 < 32) (hbits : FTy.bits .bf16 < FTy.bits .f32) (t : Fin 2048) (k : Fin 256) :
    (truncf .bf16 (sitofp .f32 (extui 32 (cmpf .oeq
        (broadcastTo S2048x256 (extractStridedSlice S2048x1 ![0, o]
          (sitofp .bf16 (transpose S2048x8 [1, 0] v2 htr) : FVec Ideal S2048x8 .bf16) hs) hb)
        (sitofp .bf16 (iota .tc S2048x256 32 [1] hio) : FVec Ideal S2048x256 .bf16)) h132) : FVec Ideal S2048x256 .f32)
      hbits : FVec Ideal S2048x256 .bf16) (ix2 t k)
      = weight (v2 (ix2 ⟨o, ho⟩ t)) k := by
  rw [truncf_apply, sitofp_apply, extui_apply, cmpf_apply, Cert.Lib.broadcastTo_a1_ab_apply,
    slice2_axis1_apply o _ hs t (0 : Fin 1) ⟨o, ho⟩ (by simp), sitofp_apply, sitofp_apply,
    transpose_ix2_apply, iota_single_apply]
  show ((((BitVec.setWidth 32 (Ideal.cmp .oeq (((v2 (ix2 ⟨o, ho⟩ t)).toInt : ℝ) : EReal)
    (((BitVec.ofNat 32 k.val).toInt : ℝ) : EReal))).toInt : ℝ)) : EReal) = _
  rw [toInt_ofNat_col]
  show ((((BitVec.setWidth 32 (BitVec.ofBool (decide ((((v2 (ix2 ⟨o, ho⟩ t)).toInt : ℝ) : EReal)
    = ((((k.val : Int)) : ℝ) : EReal))))).toInt : ℝ)) : EReal) = weight _ k
  unfold weight
  by_cases h : (v2 (ix2 ⟨o, ho⟩ t)).toInt = (k.val : Int)
  · rw [if_pos h, decide_eq_true (by rw [h])]
    have e : (BitVec.setWidth 32 (BitVec.ofBool true)).toInt = 1 := by decide
    rw [e]
    simp
  · have hne : ((((v2 (ix2 ⟨o, ho⟩ t)).toInt : ℝ)) : EReal) ≠ ((((k.val : Int)) : ℝ) : EReal) := by
      intro e
      exact h (by exact_mod_cast EReal.coe_injective e)
    rw [if_neg h, decide_eq_false hne]
    have e : (BitVec.setWidth 32 (BitVec.ofBool false)).toInt = 0 := by decide
    rw [e]
    simp

/-- The one-hot matrix of codebook `o` of the block, as the body computes it from the block of index words. -/
def oneHot (o : ℕ) (v2 : IVec S8x2048 32)
    (htr : S8x2048.Transposes [1, 0] S2048x8) (hs : S2048x8.Slices ![0, o] S2048x1)
    (hb : S2048x1.Broadcasts S2048x256) (hio : S2048x256.Iotas .tc 32 [1])
    (h132 : 1 < 32) (hbits : FTy.bits .bf16 < FTy.bits .f32) : FVec Ideal S2048x256 .bf16 :=
  truncf .bf16 (sitofp .f32 (extui 32 (cmpf .oeq
      (broadcastTo S2048x256 (extractStridedSlice S2048x1 ![0, o]
        (sitofp .bf16 (transpose S2048x8 [1, 0] v2 htr) : FVec Ideal S2048x8 .bf16) hs) hb)
      (sitofp .bf16 (iota .tc S2048x256 32 [1] hio) : FVec Ideal S2048x256 .bf16)) h132) : FVec Ideal S2048x256 .f32)
    hbits

/-- What the body stores for codebook `o` of the block: the one-hot matrix times the codebook's table into a zero
    accumulator, columns `d` and `128 + d` of the product added. -/
def cellBlock (o : ℕ) (v2 : IVec S8x2048 32) (cb : FVec Ideal S1x256x256 .bf16)
    (htr : S8x2048.Transposes [1, 0] S2048x8) (hs : S2048x8.Slices ![0, o] S2048x1)
    (hb : S2048x1.Broadcasts S2048x256) (hio : S2048x256.Iotas .tc 32 [1])
    (h132 : 1 < 32) (hbits : FTy.bits .bf16 < FTy.bits .f32) (hsc : S1x256x256.ShapeCasts S256x256)
    (h0 : S2048x256.Slices ![0, 0] S2048x128) (h128 : S2048x256.Slices ![0, 128] S2048x128) : FVec Ideal S2048x128 .f32 :=
  addf
    (extractStridedSlice S2048x128 ![0, 0]
      (matmul (DotDims.plain 2048 256 256) none (oneHot o v2 htr hs hb hio h132 hbits) (shapeCast S256x256 cb hsc)
        (constant S2048x256 .f32 0x00000000#32)) h0)
    (extractStridedSlice S2048x128 ![0, 128]
      (matmul (DotDims.plain 2048 256 256) none (oneHot o v2 htr hs hb hio h132 hbits) (shapeCast S256x256 cb hsc)
        (constant S2048x256 .f32 0x00000000#32)) h128)

/-- At vector `t` and coordinate `d` that is the one-hot row of the vector's index word against the centroids' first
    halves at `d`, plus the same row against their second halves at `d`. -/
theorem cellBlock_apply (o : ℕ) (ho : o < 8) (v2 : IVec S8x2048 32) (cb : FVec Ideal S1x256x256 .bf16)
    (htr : S8x2048.Transposes [1, 0] S2048x8) (hs : S2048x8.Slices ![0, o] S2048x1)
    (hb : S2048x1.Broadcasts S2048x256) (hio : S2048x256.Iotas .tc 32 [1])
    (h132 : 1 < 32) (hbits : FTy.bits .bf16 < FTy.bits .f32) (hsc : S1x256x256.ShapeCasts S256x256)
    (h0 : S2048x256.Slices ![0, 0] S2048x128) (h128 : S2048x256.Slices ![0, 128] S2048x128)
    (t : Fin 2048) (d : Fin 128) :
    cellBlock o v2 cb htr hs hb hio h132 hbits hsc h0 h128 (ix2 t d)
      = selSum (v2 (ix2 ⟨o, ho⟩ t)) (fun k => cb (ix3 (0 : Fin 1) k (⟨d.val, by omega⟩ : Fin 256)))
        + selSum (v2 (ix2 ⟨o, ho⟩ t)) (fun k => cb (ix3 (0 : Fin 1) k (⟨128 + d.val, by omega⟩ : Fin 256))) := by
  unfold cellBlock
  rw [addf_apply,
    slice2_axis1_apply 0 _ h0 t d (⟨d.val, by omega⟩ : Fin 256) (by simp),
    slice2_axis1_apply 128 _ h128 t d (⟨128 + d.val, by omega⟩ : Fin 256) rfl]
  show FloatOps.matmul (DotDims.plain 2048 256 256) none _ _ (constant ⟨2, ![2048, 256]⟩ .f32 0x00000000#32) _
    + FloatOps.matmul (DotDims.plain 2048 256 256) none _ _ (constant ⟨2, ![2048, 256]⟩ .f32 0x00000000#32) _ = _
  rw [Cert.Lib.matmul_plain_zero_apply, Cert.Lib.matmul_plain_zero_apply]
  unfold selSum
  congr 1
  · refine Finset.sum_congr rfl fun k _ => ?_
    show oneHot o v2 htr hs hb hio h132 hbits (ix2 t k) * shapeCast S256x256 cb hsc (ix2 k (⟨d.val, by omega⟩ : Fin 256)) = _
    rw [shapeCast_1ab_ab_apply]
    exact congrArg (· * _) (onehot_apply o ho v2 htr hs hb hio h132 hbits t k)
  · refine Finset.sum_congr rfl fun k _ => ?_
    show oneHot o v2 htr hs hb hio h132 hbits (ix2 t k) * shapeCast S256x256 cb hsc (ix2 k (⟨128 + d.val, by omega⟩ : Fin 256)) = _
    rw [shapeCast_1ab_ab_apply]
    exact congrArg (· * _) (onehot_apply o ho v2 htr hs hb hio h132 hbits t k)

end Cert.OneHot

end
-- ==== Proof.Block.lean ====
/-
  The result, block by block and as a whole.

  The result array has a row per vector and, in each row, 128 coordinates per codebook, codebook after codebook. One
  grid point fills a `2048 × 1024` block of it: 2048 vectors, 8 codebooks. Entry `(t, 128·l + d)` of a block is the
  one-hot row of the index word of codebook `l` and vector `t` of the block against the first halves of that codebook's
  centroids at coordinate `d`, plus the same row against their second halves. The same formula over the whole index
  array and the whole packed codebooks gives the whole result, and a block of it is the formula over the blocks the
  grid point reads.
-/
import Idealize.ShloMosaic.PureOps.Ideal
import Idealize.ShloMosaic.Lib.ValueIdx
import Idealize.ShloMosaic.Shape
import proofs.«429183_j3255585210642_3_alg».proof.Proof.Select

noncomputable section

namespace Cert.Block

open Idealize.ShloMosaic Idealize.ShloMosaic.ValueIdx Cert.Sel

abbrev S8x2048 : Shape := ⟨2, ![8, 2048]⟩
abbrev S8x256x256 : Shape := ⟨3, ![8, 256, 256]⟩
abbrev S2048x1024 : Shape := ⟨2, ![2048, 1024]⟩
abbrev S2048x128 : Shape := ⟨2, ![2048, 128]⟩
abbrev S32x16384 : Shape := ⟨2, ![32, 16384]⟩
abbrev S32x256x256 : Shape := ⟨3, ![32, 256, 256]⟩
abbrev S16384x4096 : Shape := ⟨2, ![16384, 4096]⟩

/-- The one-hot row of the index word `a` against a packed table `T` of 256 centroids, each 256 wide (first half, then
    second half): the selected first half at coordinate `d` plus the selected second half at `d`. -/
def pick (a : BitVec 32) (T : Fin 256 → Fin 256 → EReal) (d : Fin 128) : EReal :=
  selSum a (fun k => T k (⟨d.val, by omega⟩ : Fin 256)) + selSum a (fun k => T k (⟨128 + d.val, by omega⟩ : Fin 256))

theorem pick_congr {a a' : BitVec 32} {T T' : Fin 256 → Fin 256 → EReal} {d d' : Fin 128}
    (ha : a = a') (hT : T = T') (hd : d = d') : pick a T d = pick a' T' d' := by
  subst ha hT hd; rfl

/-- One block of the result from the grid point's block of index words and block of packed codebooks. -/
def blockVal (x0 : IVec S8x2048 32) (x1 : S8x256x256.Idx → EReal) : S2048x1024.Idx → EReal := fun y =>
  pick (x0 (ix2 (⟨(y 1).val / 128, by have := idx2_lt1 y; omega⟩ : Fin 8) (y 0)))
    (fun k j => x1 (ix3 (⟨(y 1).val / 128, by have := idx2_lt1 y; omega⟩ : Fin 8) k j))
    (⟨(y 1).val % 128, Nat.mod_lt _ (by omega)⟩ : Fin 128)

/-- The whole result from the whole index array and the whole packed codebooks. -/
def wholeVal (A0 : IVec S32x16384 32) (A1 : S32x256x256.Idx → EReal) : S16384x4096.Idx → EReal := fun i =>
  pick (A0 (ix2 (⟨(i 1).val / 128, by have := idx2_lt1 i; omega⟩ : Fin 32) (i 0)))
    (fun k j => A1 (ix3 (⟨(i 1).val / 128, by have := idx2_lt1 i; omega⟩ : Fin 32) k j))
    (⟨(i 1).val % 128, Nat.mod_lt _ (by omega)⟩ : Fin 128)

/-- The block's entries under the store of codebook `l`, which writes columns `128·l .. 128·l + 127`: at the store's own
    index `(t, d)` the block holds the pick of codebook `l`, vector `t`, coordinate `d`. -/
theorem blockVal_emb (x0 : IVec S8x2048 32) (x1 : S8x256x256.Idx → EReal) (l : Fin 8) (off : ℕ) (hoff : off = 128 * l.val)
    (inb : ∀ a, (![0, off] : Fin 2 → ℕ) a + S2048x128.size a ≤ S2048x1024.size a) (t : Fin 2048) (d : Fin 128) :
    blockVal x0 x1 ((Rect.unit (s := S2048x1024) ![0, off] S2048x128.size inb).emb (ix2 t d))
      = pick (x0 (ix2 l t)) (fun k j => x1 (ix3 l k j)) d := by
  have hd := d.isLt
  have hl := l.isLt
  have e0 : ((Rect.unit (s := S2048x1024) ![0, off] S2048x128.size inb).emb (ix2 t d)) 0 = t :=
    Fin.ext (by show 0 + 1 * t.val = t.val; omega)
  have e1 : (((Rect.unit (s := S2048x1024) ![0, off] S2048x128.size inb).emb (ix2 t d)) 1).val = off + 1 * d.val := rfl
  have el : (⟨(((Rect.unit (s := S2048x1024) ![0, off] S2048x128.size inb).emb (ix2 t d)) 1).val / 128,
      by rw [e1]; omega⟩ : Fin 8) = l := Fin.ext (by show _ / 128 = l.val; rw [e1]; omega)
  unfold blockVal
  refine pick_congr ?_ ?_ (Fin.ext (by show _ % 128 = d.val; rw [e1]; omega))
  · rw [el, e0]
  · rw [el]

/-- A block of the whole is the block formula over the blocks read: if the grid point's index block is rows
    `8g .. 8g + 7`, columns `2048c .. 2048c + 2047` of the index array and its codebook block is codebooks `8g .. 8g + 7`,
    then the block's entry at `y` is the whole's entry at row `2048c + y₀`, column `1024g + y₁`. -/
theorem blockVal_eq_wholeVal (x0 : IVec S8x2048 32) (x1 : S8x256x256.Idx → EReal)
    (A0 : IVec S32x16384 32) (A1 : S32x256x256.Idx → EReal) (g cc : ℕ) (hg : g < 4) (hcc : cc < 8)
    (h0 : ∀ (l : Fin 8) (t : Fin 2048),
      x0 (ix2 l t) = A0 (ix2 (⟨g * 8 + l.val, by omega⟩ : Fin 32) (⟨cc * 2048 + t.val, by omega⟩ : Fin 16384)))
    (h1 : ∀ (l : Fin 8) (k j : Fin 256), x1 (ix3 l k j) = A1 (ix3 (⟨g * 8 + l.val, by omega⟩ : Fin 32) k j))
    (y : S2048x1024.Idx) (i : S16384x4096.Idx)
    (hi0 : (i 0).val = cc * 2048 + (y 0).val) (hi1 : (i 1).val = g * 1024 + (y 1).val) :
    blockVal x0 x1 y = wholeVal A0 A1 i := by
  have hy0 := idx2_lt0 y
  have hy1 := idx2_lt1 y
  unfold blockVal wholeVal
  refine pick_congr ?_ ?_ (Fin.ext (by show (y 1).val % 128 = (i 1).val % 128; omega))
  · refine (h0 _ _).trans (congrArg A0 (congrArg₂ ix2 (Fin.ext ?_) (Fin.ext ?_)))
    · show g * 8 + (y 1).val / 128 = (i 1).val / 128; omega
    · show cc * 2048 + (y 0).val = (i 0).val; omega
  · funext k j
    refine (h1 _ k j).trans (congrArg A1 (congrArg (fun h => ix3 h k j) (Fin.ext ?_)))
    show g * 8 + (y 1).val / 128 = (i 1).val / 128; omega

end Cert.Block

end
-- ==== Proof.Payloads.lean ====
/-
  What the body leaves in the output block, as one function of the block's index.

  The body handles the eight codebooks of the block one after the other, each with the same computation on its own
  column of index words and its own table, and stores the result in its own 128 columns of the block. Each store's
  payload is the one-hot pick of that codebook; together the eight stores tile the block, so the block is the pick of
  codebook `column / 128` at coordinate `column % 128`, entry by entry.
-/
import proofs.«429183_j3255585210642_3_alg».proof.Proof.Gen.KernelIdeal.Frame
import proofs.«429183_j3255585210642_3_alg».proof.Proof.OneHot
import proofs.«429183_j3255585210642_3_alg».proof.Proof.Block
import Idealize.ShloMosaic.Lib.Pipeline.Value

set_option maxRecDepth 16384

noncomputable section

namespace Cert.KernelIdeal.Pay

open Cert.KernelIdeal Cert.KernelIdeal.Gen Idealize.ShloMosaic Idealize.ShloMosaic.ValueIdx
open Cert.Sel Cert.OneHot Cert.Block

/-- The printed contraction of a `2048 × 256` by a `256 × 256` matrix is the plain matrix product. -/
theorem dot_eq : dot_S2048x256_S256x256_S2048x256_1_0_0_1_n_n = DotDims.plain 2048 256 256 := rfl

theorem hz2 : (![0, 0] : Fin 2 → Nat) = fun _ => 0 := funext fun a => by fin_cases a <;> rfl

/-- The body's computation for codebook `o` of the block, on the loaded index block and the loaded table of that
    codebook, at vector `t` and coordinate `d`: the pick of the vector's index word in the codebook's packed table. -/
theorem piece_apply (o : ℕ) (ho : o < 8) (x0 : Vec Ideal Cert.KernelIdeal.S8x2048 .i32)
    (x1 : Vec Ideal Cert.KernelIdeal.S8x256x256 .bf16) (hs : Cert.KernelIdeal.S2048x8.Slices ![0, o] Cert.KernelIdeal.S2048x1)
    (inbcb : ∀ a, (![o, 0, 0] : Fin 3 → ℕ) a + Cert.KernelIdeal.S1x256x256.size a ≤ Cert.KernelIdeal.S8x256x256.size a)
    (t : Fin 2048) (d : Fin 128) :
    cellBlock o (View.ld x0 r0_0)
        (View.ld x1 (Rect.unit (s := Cert.KernelIdeal.S8x256x256) ![o, 0, 0] Cert.KernelIdeal.S1x256x256.size inbcb))
        Facts₀.transposes_S8x2048_p1_0_S2048x8 hs Facts₀.broadcasts_S2048x1_S2048x256 Facts₀.iota_S2048x256_d1_w32 Facts₀.natLt_1_32 Facts₀.bitsLt_bf16_f32
      Facts₀.shapeCasts_S1x256x256_S256x256 Facts₀.slices_S2048x256_o0_0_S2048x128
      Facts₀.slices_S2048x256_o0_128_S2048x128 (ix2 t d)
      = pick (x0 (ix2 ⟨o, ho⟩ t)) (fun k j => x1 (ix3 ⟨o, ho⟩ k j)) d := by
  have hcb : ∀ (k j : Fin 256),
      View.ld x1 (Rect.unit (s := Cert.KernelIdeal.S8x256x256) ![o, 0, 0] Cert.KernelIdeal.S1x256x256.size inbcb)
        (ix3 (0 : Fin 1) k j) = x1 (ix3 ⟨o, ho⟩ k j) := fun k j =>
    congrArg x1 (funext fun a => Fin.ext (by
      match a with
      | ⟨0, _⟩ => show o + 1 * 0 = o; omega
      | ⟨1, _⟩ => show 0 + 1 * k.val = k.val; omega
      | ⟨2, _⟩ => show 0 + 1 * j.val = j.val; omega))
  rw [cellBlock_apply o ho, View.ld_unit_zero (S := Cert.KernelIdeal.S8x2048) hz2]
  unfold pick
  simp only [hcb]

/-- The store into columns `896 .. 1023` holds the picks of codebook 7 of the block. -/
theorem piece7 (x0 : Vec Ideal Cert.KernelIdeal.S8x2048 .i32) (x1 : Vec Ideal Cert.KernelIdeal.S8x256x256 .bf16)
    (x : r0_16.shape.Idx) :
    k0_pay3 (k0_pay4 (F := Ideal)) (k0_pay5 (View.ld x0 r0_0)) (View.ld x1 r0_15) x = blockVal x0 x1 (r0_16.emb x) := by
  obtain ⟨t, d, rfl⟩ : ∃ (t : Fin 2048) (d : Fin 128), x = ix2 t d := ⟨x 0, x 1, eq_ix2 x⟩
  exact (piece_apply 7 (by decide) x0 x1 _ _ t d).trans (blockVal_emb x0 x1 ⟨7, by decide⟩ 896 rfl _ t d).symm

/-- The store into columns `768 .. 895` holds the picks of codebook 6 of the block. -/
theorem piece6 (x0 : Vec Ideal Cert.KernelIdeal.S8x2048 .i32) (x1 : Vec Ideal Cert.KernelIdeal.S8x256x256 .bf16)
    (x : r0_14.shape.Idx) :
    k0_pay2 (k0_pay4 (F := Ideal)) (k0_pay5 (View.ld x0 r0_0)) (View.ld x1 r0_13) x = blockVal x0 x1 (r0_14.emb x) := by
  obtain ⟨t, d, rfl⟩ : ∃ (t : Fin 2048) (d : Fin 128), x = ix2 t d := ⟨x 0, x 1, eq_ix2 x⟩
  exact (piece_apply 6 (by decide) x0 x1 _ _ t d).trans (blockVal_emb x0 x1 ⟨6, by decide⟩ 768 rfl _ t d).symm

/-- The store into columns `640 .. 767` holds the picks of codebook 5 of the block. -/
theorem piece5 (x0 : Vec Ideal Cert.KernelIdeal.S8x2048 .i32) (x1 : Vec Ideal Cert.KernelIdeal.S8x256x256 .bf16)
    (x : r0_12.shape.Idx) :
    k0_pay1 (k0_pay13 (k0_pay4 (F := Ideal)) (k0_pay5 (View.ld x0 r0_0))) (k0_pay14 (View.ld x1 r0_11)) x = blockVal x0 x1 (r0_12.emb x) := by
  obtain ⟨t, d, rfl⟩ : ∃ (t : Fin 2048) (d : Fin 128), x = ix2 t d := ⟨x 0, x 1, eq_ix2 x⟩
  exact (piece_apply 5 (by decide) x0 x1 _ _ t d).trans (blockVal_emb x0 x1 ⟨5, by decide⟩ 640 rfl _ t d).symm

/-- The store into columns `512 .. 639` holds the picks of codebook 4 of the block. -/
theorem piece4 (x0 : Vec Ideal Cert.KernelIdeal.S8x2048 .i32) (x1 : Vec Ideal Cert.KernelIdeal.S8x256x256 .bf16)
    (x : r0_10.shape.Idx) :
    k0_pay12 (k0_pay4 (F := Ideal)) (k0_pay5 (View.ld x0 r0_0)) (View.ld x1 r0_9) x = blockVal x0 x1 (r0_10.emb x) := by
  obtain ⟨t, d, rfl⟩ : ∃ (t : Fin 2048) (d : Fin 128), x = ix2 t d := ⟨x 0, x 1, eq_ix2 x⟩
  exact (piece_apply 4 (by decide) x0 x1 _ _ t d).trans (blockVal_emb x0 x1 ⟨4, by decide⟩ 512 rfl _ t d).symm

/-- The store into columns `384 .. 511` holds the picks of codebook 3 of the block. -/
theorem piece3 (x0 : Vec Ideal Cert.KernelIdeal.S8x2048 .i32) (x1 : Vec Ideal Cert.KernelIdeal.S8x256x256 .bf16)
    (x : r0_8.shape.Idx) :
    k0_pay11 (k0_pay4 (F := Ideal)) (k0_pay5 (View.ld x0 r0_0)) (View.ld x1 r0_7) x = blockVal x0 x1 (r0_8.emb x) := by
  obtain ⟨t, d, rfl⟩ : ∃ (t : Fin 2048) (d : Fin 128), x = ix2 t d := ⟨x 0, x 1, eq_ix2 x⟩
  exact (piece_apply 3 (by decide) x0 x1 _ _ t d).trans (blockVal_emb x0 x1 ⟨3, by decide⟩ 384 rfl _ t d).symm

/-- The store into columns `256 .. 383` holds the picks of codebook 2 of the block. -/
theorem piece2 (x0 : Vec Ideal Cert.KernelIdeal.S8x2048 .i32) (x1 : Vec Ideal Cert.KernelIdeal.S8x256x256 .bf16)
    (x : r0_6.shape.Idx) :
    k0_pay10 (k0_pay8 (View.ld x0 r0_0)) (k0_pay9 (View.ld x1 r0_5)) x = blockVal x0 x1 (r0_6.emb x) := by
  obtain ⟨t, d, rfl⟩ : ∃ (t : Fin 2048) (d : Fin 128), x = ix2 t d := ⟨x 0, x 1, eq_ix2 x⟩
  exact (piece_apply 2 (by decide) x0 x1 _ _ t d).trans (blockVal_emb x0 x1 ⟨2, by decide⟩ 256 rfl _ t d).symm

/-- The store into columns `128 .. 255` holds the picks of codebook 1 of the block. -/
theorem piece1 (x0 : Vec Ideal Cert.KernelIdeal.S8x2048 .i32) (x1 : Vec Ideal Cert.KernelIdeal.S8x256x256 .bf16)
    (x : r0_4.shape.Idx) :
    k0_pay7 (View.ld x0 r0_0) (View.ld x1 r0_3) x = blockVal x0 x1 (r0_4.emb x) := by
  obtain ⟨t, d, rfl⟩ : ∃ (t : Fin 2048) (d : Fin 128), x = ix2 t d := ⟨x 0, x 1, eq_ix2 x⟩
  exact (piece_apply 1 (by decide) x0 x1 _ _ t d).trans (blockVal_emb x0 x1 ⟨1, by decide⟩ 128 rfl _ t d).symm

/-- The store into columns `0 .. 127` holds the picks of codebook 0 of the block. -/
theorem piece0 (x0 : Vec Ideal Cert.KernelIdeal.S8x2048 .i32) (x1 : Vec Ideal Cert.KernelIdeal.S8x256x256 .bf16)
    (x : r0_2.shape.Idx) :
    k0_pay6 (View.ld x0 r0_0) (View.ld x1 r0_1) x = blockVal x0 x1 (r0_2.emb x) := by
  obtain ⟨t, d, rfl⟩ : ∃ (t : Fin 2048) (d : Fin 128), x = ix2 t d := ⟨x 0, x 1, eq_ix2 x⟩
  exact (piece_apply 0 (by decide) x0 x1 _ _ t d).trans (blockVal_emb x0 x1 ⟨0, by decide⟩ 0 rfl _ t d).symm

/-- THE OUTPUT BLOCK after the body: entry `(t, c)` is the pick of codebook `c / 128` of the block for vector `t` at
    coordinate `c % 128`. The eight stores agree with that one function, each on its own columns, and tile the block. -/
theorem out0_2_eq (x0 : Vec Ideal Cert.KernelIdeal.S8x2048 .i32) (x1 : Vec Ideal Cert.KernelIdeal.S8x256x256 .bf16) :
    out0_2 x0 x1 = blockVal x0 x1 := by
  funext y
  unfold out0_2
  refine View.canon_apply_of_pieces (Val := Elt Ideal) (S := Cert.KernelIdeal.S2048x1024) (e := .f32)
    (blockVal x0 x1 : Cert.KernelIdeal.S2048x1024.Idx → Elt Ideal .f32) _ ?_ y (cover0_2 _ _ _ _ _ _ _ _ y)
  intro p hp
  simp only [List.mem_cons, List.not_mem_nil, or_false] at hp
  rcases hp with rfl | rfl | rfl | rfl | rfl | rfl | rfl | rfl
  · exact piece7 x0 x1
  · exact piece6 x0 x1
  · exact piece5 x0 x1
  · exact piece4 x0 x1
  · exact piece3 x0 x1
  · exact piece2 x0 x1
  · exact piece1 x0 x1
  · exact piece0 x0 x1

end Cert.KernelIdeal.Pay

end
-- ==== Proof.KernelValue.lean ====
/-
  The kernel's result array as one function of its arguments.

  Grid point `(g, c)` reads rows `8g .. 8g + 7`, columns `2048c .. 2048c + 2047` of the index array and codebooks
  `8g .. 8g + 7` of the packed codebooks, and writes block `(c, g)` of the result: rows `2048c ..`, columns `1024g ..`.
  What it writes is that block of the whole-array formula, and the 32 blocks tile the result.
-/
import proofs.«429183_j3255585210642_3_alg».proof.Proof.Gen.KernelIdeal.Value
import proofs.«429183_j3255585210642_3_alg».proof.Proof.Payloads

set_option maxRecDepth 16384

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.Block Cert.KernelIdeal.Pay
open Idealize.ShloMosaic.Pipeline (Dat)

variable (m : (ℓ : Loc nD τ sig) → Buf (Elt Ideal) ℓ) (ρ : Dev nD → PrngReg)

/-- The printed index maps over the 32 grid points: the index block moves with the result block (rows of one are the
    columns' codebook group of the other), the codebook block follows the codebook group, and the result's block indices
    stay in their ranges. -/
theorem idx_facts : ∀ t : Fin cfg0.N, win0_0.index t (0 : Fin 2) = win0_2.index t (1 : Fin 2)
    ∧ win0_0.index t (1 : Fin 2) = win0_2.index t (0 : Fin 2)
    ∧ win0_1.index t (0 : Fin 3) = win0_2.index t (1 : Fin 2)
    ∧ win0_1.index t (1 : Fin 3) = 0
    ∧ win0_1.index t (2 : Fin 3) = 0
    ∧ win0_2.index t (0 : Fin 2) < 8
    ∧ win0_2.index t (1 : Fin 2) < 4 :=
  (by decide +kernel : ∀ t : Fin grid0.N, _)

/-- Every block of the result is some grid point's. -/
theorem idx_onto : ∀ (q0 : Fin 8) (q1 : Fin 4), ∃ t : Fin cfg0.N, win0_2.index t = ![q0.val, q1.val] :=
  (by decide +kernel : ∀ (q0 : Fin 8) (q1 : Fin 4), ∃ t : Fin grid0.N, win0_2.index t = ![q0.val, q1.val])

/-- The index block at a point, at its literal type. -/
abbrev idxBlk (c : Dev nD) (t : Fin cfg0.N) : Vec Ideal S8x2048 .i32 := iblk m c 0 t
/-- The packed-codebook block at a point, at its literal type. -/
abbrev cbBlk (c : Dev nD) (t : Fin cfg0.N) : Vec Ideal S8x256x256 .bf16 := iblk m c 1 t

/-- The index block's entries are the index array's at the block's place. -/
theorem idxBlk_apply (c : Dev nD) (t : Fin cfg0.N) (l : Fin 8) (u : Fin 2048) :
    idxBlk m c t (ix2 l u) = V m c main_arg0 (ix2 (⟨win0_2.index t (1 : Fin 2) * 8 + l.val, by
        have := (idx_facts t).2.2.2.2.2.2; omega⟩ : Fin 32) (⟨win0_2.index t (0 : Fin 2) * 2048 + u.val, by
        have := (idx_facts t).2.2.2.2.2.1; omega⟩ : Fin 16384)) := by
  obtain ⟨e0, e1, e2, e3, e4, e5, e6⟩ := idx_facts t
  show V m c main_arg0 (((cfg0.win 0).blk t).view.emb (ix2 l u)) = _
  refine congrArg (V m c main_arg0) (funext fun a => Fin.ext ?_)
  match a with
  | ⟨0, _⟩ => show win0_0.index t (0 : Fin 2) * 8 + 1 * l.val = win0_2.index t (1 : Fin 2) * 8 + l.val; omega
  | ⟨1, _⟩ => show win0_0.index t (1 : Fin 2) * 2048 + 1 * u.val = win0_2.index t (0 : Fin 2) * 2048 + u.val; omega

/-- The codebook block's entries are the packed codebooks' at the block's place. -/
theorem cbBlk_apply (c : Dev nD) (t : Fin cfg0.N) (l : Fin 8) (k j : Fin 256) :
    cbBlk m c t (ix3 l k j) = V m c main_v4 (ix3 (⟨win0_2.index t (1 : Fin 2) * 8 + l.val, by
        have := (idx_facts t).2.2.2.2.2.2; omega⟩ : Fin 32) k j) := by
  obtain ⟨e0, e1, e2, e3, e4, e5, e6⟩ := idx_facts t
  show V m c main_v4 (((cfg0.win 1).blk t).view.emb (ix3 l k j)) = _
  refine congrArg (V m c main_v4) (funext fun a => Fin.ext ?_)
  match a with
  | ⟨0, _⟩ => show win0_1.index t (0 : Fin 3) * 8 + 1 * l.val = win0_2.index t (1 : Fin 2) * 8 + l.val; omega
  | ⟨1, _⟩ => show win0_1.index t (1 : Fin 3) * 256 + 1 * k.val = k.val; omega
  | ⟨2, _⟩ => show win0_1.index t (2 : Fin 3) * 256 + 1 * j.val = j.val; omega

/-- WHAT POINT `t` WRITES BACK is block `t` of the whole-array formula over the arrays as the region finds them. -/
theorem flushed_eq (c : Dev nD) (t : Fin cfg0.N) :
    (dats m 0 c).flushed 2 t
      = ((cfg0.win 2).blk t).view.read (Elt Ideal) (wholeVal (V m c main_arg0) (V m c main_v4)) := by
  rw [flushed2]
  show (cfg0.win 2).cut (grid0.coords t) (out0_2 (idxBlk m c t) (cbBlk m c t)) = _
  rw [out0_2_eq]
  obtain ⟨e0, e1, e2, e3, e4, e5, e6⟩ := idx_facts t
  funext y
  show blockVal (idxBlk m c t) (cbBlk m c t) y
    = wholeVal (V m c main_arg0) (V m c main_v4) (((cfg0.win 2).blk t).view.emb y)
  exact blockVal_eq_wholeVal (idxBlk m c t) (cbBlk m c t) (V m c main_arg0) (V m c main_v4)
    (win0_2.index t (1 : Fin 2)) (win0_2.index t (0 : Fin 2)) e6 e5
    (fun l u => idxBlk_apply m c t l u) (fun l k j => cbBlk_apply m c t l k j) y _
    (by show win0_2.index t (0 : Fin 2) * 2048 + 1 * (y 0).val = _; omega)
    (by show win0_2.index t (1 : Fin 2) * 1024 + 1 * (y 1).val = _; omega)

/-- An index of the result is in point `t`'s block iff each coordinate is in the block's range on its axis. -/
theorem mem_blk (t : Fin cfg0.N) (i : S16384x4096.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole main_v5).slice (win0_2.rect t)).set ↔ _
  rw [View.set_slice_whole, Rect.mem_set_unit]
  exact Iff.rfl

/-- The blocks tile the result: every index is in the block of the point with block indices `(row / 2048, column / 1024)`. -/
theorem cover (i : S16384x4096.Idx) :
    ∃ t : Fin cfg0.N, (cfg0.win 2).flush t = true ∧ i ∈ ((cfg0.win 2).blk t).view.set := by
  have hi0 : (i 0).val < 16384 := (i 0).isLt
  have hi1 : (i 1).val < 4096 := (i 1).isLt
  obtain ⟨t, ht⟩ := idx_onto ⟨(i 0).val / 2048, by omega⟩ ⟨(i 1).val / 1024, by omega⟩
  have q0 : win0_2.index t (0 : Fin 2) = (i 0).val / 2048 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 1024 ≤ (i 1).val ∧ (i 1).val < win0_2.index t (1 : Fin 2) * 1024 + 1024; omega

/-- THE RESULT ARRAY after the run: the whole-array formula over the index array and the packed codebooks as the
    region finds them. -/
theorem final (c : Dev nD) :
    (dats m 0 c).arrAt 2 cfg0.N = wholeVal (V m c main_arg0) (V m c main_v4) :=
  (dats m 0 c).arrAt_eq_of_cover 2 (wholeVal (V m c main_arg0) (V m c main_v4)) (fun t _ => flushed_eq m c t) cover

end Cert.KernelIdeal.Whole

end
-- ==== Proof.Packed.lean ====
/-
  The packed codebooks, and the gather they make of the result.

  Before the kernel runs, every codebook entry `x` is split into a leading part (a change of float format, which at the
  ideal values is `x` itself) and a residual `x - (leading part)`, which for a finite `x` is `x - x = 0`; the two parts are
  laid side by side along the last axis. So a centroid's first half is the centroid and its second half is zero, and
  the pick of an index word in `[0, 256)` — the selected first half plus the selected second half — is the centroid the
  word names: the whole result is the gather `out[c, 128·h + d] = codebooks[h, indices[h, c], d]`.
-/
import Idealize.ShloMosaic.PureOps.Ideal
import Idealize.ShloMosaic.Lib.ValueIdx
import Idealize.ShloMosaic.Lib.Pipeline.Value
import proofs.«429183_j3255585210642_3_alg».proof.Proof.Select
import proofs.«429183_j3255585210642_3_alg».proof.Proof.Block

noncomputable section

namespace Cert.Packed

open Idealize.ShloMosaic Idealize.ShloMosaic.ValueIdx Cert.Sel Cert.Block

abbrev S32x256x128 : Shape := ⟨3, ![32, 256, 128]⟩

/-- The packed codebooks: along the last axis the entries' leading parts, then their residuals. -/
def packed (cb : FVec Ideal S32x256x128 .f32) (hbits : FTy.bits .bf16 < FTy.bits .f32)
    (hcat : Shape.Concatenates [S32x256x128, S32x256x128] S32x256x256 2) : FVec Ideal S32x256x256 .bf16 :=
  concatenate S32x256x256 2
    [⟨S32x256x128, (truncf .bf16 cb hbits : FVec Ideal S32x256x128 .bf16)⟩,
     ⟨S32x256x128, (truncf .bf16 (subf cb (extf .f32 (truncf .bf16 cb hbits : FVec Ideal S32x256x128 .bf16) hbits)) hbits
        : FVec Ideal S32x256x128 .bf16)⟩] hcat

/-- A centroid's first half is the centroid. -/
theorem packed_lo (cb : FVec Ideal S32x256x128 .f32) (hbits : FTy.bits .bf16 < FTy.bits .f32)
    (hcat : Shape.Concatenates [S32x256x128, S32x256x128] S32x256x256 2) (h : Fin 32) (k : Fin 256) (d : Fin 128) :
    packed cb hbits hcat (ix3 h k (⟨d.val, by omega⟩ : Fin 256)) = cb (ix3 h k d) := by
  unfold packed
  refine (concatenate_pair_apply_left (t := S32x256x256) (s₁ := S32x256x128) (s₂ := S32x256x128) (2 : Fin 3) _ _ hcat
    (ix3 h k (⟨d.val, by omega⟩ : Fin 256)) rfl (ix3 h k d) (fun b => by
    match b with
    | ⟨0, _⟩ => rfl
    | ⟨1, _⟩ => rfl
    | ⟨2, _⟩ => rfl)).trans ?_
  rfl

/-- A finite centroid's second half is zero. -/
theorem packed_hi (cb : FVec Ideal S32x256x128 .f32) (hbits : FTy.bits .bf16 < FTy.bits .f32)
    (hcat : Shape.Concatenates [S32x256x128, S32x256x128] S32x256x256 2)
    (hfin : ∀ i, cb i ≠ ⊤ ∧ cb i ≠ ⊥) (h : Fin 32) (k : Fin 256) (d : Fin 128) :
    packed cb hbits hcat (ix3 h k (⟨128 + d.val, by omega⟩ : Fin 256)) = 0 := by
  unfold packed
  refine (concatenate_pair_apply_right (t := S32x256x256) (s₁ := S32x256x128) (s₂ := S32x256x128) (2 : Fin 3) _ _ hcat
    (ix3 h k (⟨128 + d.val, by omega⟩ : Fin 256)) rfl rfl (ix3 h k d) (fun b hb => by
    match b with
    | ⟨0, _⟩ => rfl
    | ⟨1, _⟩ => rfl
    | ⟨2, _⟩ => exact absurd rfl hb) (by show d.val + 128 = 128 + d.val; omega)).trans ?_
  show cb (ix3 h k d) - cb (ix3 h k d) = 0
  exact EReal.sub_self (hfin _).1 (hfin _).2

/-- The gather: entry `(c, 128·h + d)` is entry `d` of the centroid of codebook `h` that the index word of codebook `h` and
    vector `c` names (the word read signed and kept inside `[0, 255]`). -/
def G (idx : IVec S32x16384 32) (cb : S32x256x128.Idx → EReal) : S16384x4096.Idx → EReal := fun i =>
  cb (ix3 (⟨(i 1).val / 128, by have := idx2_lt1 i; omega⟩ : Fin 32)
    (⟨min (idx (ix2 (⟨(i 1).val / 128, by have := idx2_lt1 i; omega⟩ : Fin 32) (i 0))).toInt.toNat 255, by omega⟩ : Fin 256)
    (⟨(i 1).val % 128, Nat.mod_lt _ (by omega)⟩ : Fin 128))

/-- Over finite codebooks and index words in `[0, 256)`, the whole-array formula over the packed codebooks is the gather. -/
theorem wholeVal_packed (idx : IVec S32x16384 32) (cb : FVec Ideal S32x256x128 .f32)
    (hbits : FTy.bits .bf16 < FTy.bits .f32) (hcat : Shape.Concatenates [S32x256x128, S32x256x128] S32x256x256 2)
    (hfin : ∀ i, cb i ≠ ⊤ ∧ cb i ≠ ⊥) (hr : ∀ i, 0 ≤ (idx i).toInt ∧ (idx i).toInt < 256) :
    wholeVal idx (packed cb hbits hcat) = G idx cb := by
  funext i
  unfold wholeVal pick G
  rw [selSum_eq _ _ (hr _).1 (hr _).2, selSum_eq _ _ (hr _).1 (hr _).2]
  show packed cb hbits hcat (ix3 _ _ (⟨_, _⟩ : Fin 256)) + packed cb hbits hcat (ix3 _ _ (⟨128 + _, _⟩ : Fin 256)) = _
  rw [packed_hi cb hbits hcat hfin, add_zero]
  refine (packed_lo cb hbits hcat _ _ ⟨(i 1).val % 128, Nat.mod_lt _ (by omega)⟩).trans ?_
  refine congrArg cb (congrArg (fun k => ix3 _ k _) (Fin.ext ?_))
  have hh := (hr (ix2 (⟨(i 1).val / 128, by have := idx2_lt1 i; omega⟩ : Fin 32) (i 0)))
  show (idx (ix2 (⟨(i 1).val / 128, by have := idx2_lt1 i; omega⟩ : Fin 32) (i 0))).toInt.toNat
    = min (idx (ix2 (⟨(i 1).val / 128, by have := idx2_lt1 i; omega⟩ : Fin 32) (i 0))).toInt.toNat 255
  omega

end Cert.Packed

end
-- ==== Proof.Precond.lean ====
/-
  The precondition, read back.

  It is the conjunction of three `all`s: every codebook entry has absolute value below `+∞` (so it is a real number),
  every index word is `≥ 0` read signed, and every index word is `< 256` read signed.
-/
import proofs.«429183_j3255585210642_3_alg».proof.Pre_finite_inputs
import proofs.«429183_j3255585210642_3_alg».proof.Proof.Gen.Pre_finite_inputs
import Idealize.ShloMosaic.Lib.ReduceAll
import Idealize.ShloMosaic.Lib.ValueIdx
import Idealize.ShloMosaic.Lib.Affine
import Idealize.ShloMosaic.PureOps.Ideal

noncomputable section

namespace Cert.Precond

open Idealize.ShloMosaic Idealize.ShloMosaic.ValueIdx Cert.Pre_finite_inputs

instance : Subsingleton S_.Idx := ⟨fun a b => funext fun d => d.elim0⟩

/-- An extended real whose absolute value is below `+∞` is neither infinity. -/
theorem finite_of_abs_lt (x : EReal)
    (h : Ideal.cmp .olt (max x (-x)) (Ideal.ofBits .f32 0x7F800000#32) = 1#1) : x ≠ ⊤ ∧ x ≠ ⊥ := by
  have htop : Ideal.ofBits .f32 0x7F800000#32 = ⊤ := by simp [Ideal.ofBits, Ideal.ieee]
  rw [htop] at h
  have h' : BitVec.ofBool (decide (max x (-x) < ⊤)) = 1#1 := h
  have hlt : max x (-x) < ⊤ := by
    by_contra hn
    rw [decide_eq_false hn] at h'
    exact absurd h' (by decide)
  constructor
  · rintro rfl
    simp at hlt
  · rintro rfl
    simp at hlt

/-- What the precondition says of the arguments: the codebooks are finite and the index words are in `[0, 256)`. -/
theorem decode (idx : IVec S32x16384 32) (cb : FVec Ideal S32x256x128 .f32)
    (h : Cert.Pre_finite_inputs.fn (F := Ideal) idx cb = fun _ => 1#1) :
    (∀ i, cb i ≠ ⊤ ∧ cb i ≠ ⊥) ∧ (∀ i, 0 ≤ (idx i).toInt ∧ (idx i).toInt < 256) := by
  have h1 := congrFun h ix0
  dsimp only [Cert.Pre_finite_inputs.fn] at h1
  obtain ⟨h12, hC⟩ := IntOp.andi_eq_one.1 h1
  obtain ⟨hA, hB⟩ := IntOp.andi_eq_one.1 h12
  refine ⟨fun i => ?_, fun i => ⟨?_, ?_⟩⟩
  · have e := Host.reduce_andi_all _ _ _ _ ix0 hA i
    exact finite_of_abs_lt (cb i) e
  · have e := Host.reduce_andi_all _ _ _ _ ix0 hB i
    have e' : IntOp.cmpi .sge (idx i) 0#32 = 1#1 := e
    have := IntOp.cmpi_sge.1 e'
    simpa using this
  · have e := Host.reduce_andi_all _ _ _ _ ix0 hC i
    have e' : IntOp.cmpi .slt (idx i) 256#32 = 1#1 := e
    have := IntOp.cmpi_slt.1 e'
    have h256 : (256#32 : BitVec 32).toInt = 256 := by decide
    omega

end Cert.Precond

end
-- ==== Proof.KernelRun.lean ====
/-
  The kernel's run under the precondition: its result array is the gather.

  The region finds the index array as launched and the packed codebooks as the host operations before it made them;
  the run leaves the whole-array formula over those in the result array, and over finite codebooks and index words in
  `[0, 256)` that formula is the gather.
-/
import proofs.«429183_j3255585210642_3_alg».proof.Defs
import proofs.«429183_j3255585210642_3_alg».proof.Proof.KernelValue
import proofs.«429183_j3255585210642_3_alg».proof.Proof.Packed
import proofs.«429183_j3255585210642_3_alg».proof.Proof.Precond
import Idealize.ShloMosaic.Lib.StableHlo.Run

set_option maxRecDepth 16384

noncomputable section

namespace Cert.KernelIdeal.Whole

open Cert.KernelIdeal Cert.KernelIdeal.Gen Cert.KernelIdeal.Value Idealize.ShloMosaic Idealize.ShloMosaic.TcCoe Idealize.SL.Sem
open Idealize.ShloMosaic.StableHlo Cert.Block Cert.Packed

variable (m : (ℓ : Loc nD τ sig) → Buf (Elt Ideal) ℓ) (ρ : Dev nD → PrngReg)

/-- The packed codebooks as the region finds them: the host operations' term of the codebooks as launched. -/
theorem V_main_v4 (c : Dev nD) :
    (V m c main_v4 : S32x256x256.Idx → EReal)
      = packed (m ((c : Thread nD τ).loc main_arg1)) Facts₀.bitsLt_bf16_f32
          Facts₀.concatenates_S32x256x128_S32x256x128_S32x256x256_d2 := by
  dsimp only [Gen.V, Gen.hostOps0]
  after_results
  rfl

/-- THE KERNEL'S RUN under the precondition: the result array ends at the gather of the arguments as launched, the
    arguments unchanged. -/
theorem run_gather (hpre : Cert.Pre_KernelIdeal m) :
    θ_run defs (onTc (τ := τ) (main (F := Ideal))) ⟨m, fun _ => 0, ρ⟩ fun r => ∀ c : Dev nD,
      r.2.mem ((c : Thread nD τ).loc main_v5)
        = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨by
      obtain ⟨hfin, hr⟩ := Cert.Precond.decode _ _ (hpre c)
      refine (h c).1.trans ((final m c).trans ?_)
      rw [V_main_arg0, V_main_v4]
      exact wholeVal_packed _ _ _ _ hfin hr, (h c).2⟩)
    (run_blocks m ρ)

end Cert.KernelIdeal.Whole

end
-- ==== Proof.RefValue.lean ====
/-
  The reference's result is the gather.

  The reference builds, for every codebook `h` and vector `c`, the pair (codebook number, index word) — each first
  wrapped once if negative (a negative position counts from the end of its axis) —, gathers the 128 entries of the centroid the pair names (each
  component kept inside its axis), and lays the result out with the vector first and the codebooks side by side. For a
  codebook number in `[0, 32)` and a nonnegative index word nothing wraps, so entry `(c, 128·h + d)` is entry `d` of the
  centroid of codebook `h` named by the index word of `(h, c)`.
-/
import proofs.«429183_j3255585210642_3_alg».proof.Proof.Gen.ReferenceIdeal.Read
import proofs.«429183_j3255585210642_3_alg».proof.Proof.Packed
import Idealize.ShloMosaic.Lib.Pipeline.Value
import Idealize.ShloMosaic.Lib.ValueIdx
import Idealize.ShloMosaic.Lib.Affine

set_option maxRecDepth 16384

noncomputable section

namespace Cert.ReferenceIdeal.RefValue

open Cert.ReferenceIdeal Cert.ReferenceIdeal.Gen Cert.ReferenceIdeal.Read Idealize.ShloMosaic Idealize.ShloMosaic.ValueIdx

/-- The reference's gather: operand axes 0 and 1 named by the two components of the start index, axis 2 taken whole. -/
abbrev gd := gather_S32x256x128_S32x16384x2_S32x16384x128_2_01_n_n_01_2_11128

/-- THE GATHER READ AT `(h, c, d)`: the operand at (first component, second component, `d`), each component read signed
    and kept inside its axis. -/
theorem gather_apply {α : Type} (x : S32x256x128.Idx → α) (idx : IVec S32x16384x2 32) (h : Fin 32) (c : Fin 16384) (d : Fin 128) :
    Host.gather gd x idx (ix3 h c d)
      = x (ix3 (⟨min (idx (ix3 h c (0 : Fin 2))).toInt.toNat 31, by omega⟩ : Fin 32)
          (⟨min (idx (ix3 h c (1 : Fin 2))).toInt.toNat 255, by omega⟩ : Fin 256) d) := by
  unfold Host.gather
  refine congrArg x (funext fun a => Fin.ext ?_)
  have m0 : (0 : Fin 3) ∈ gd.startIndexMap := by show (0 : Fin 3) ∈ [0, 1]; simp
  have m1 : (1 : Fin 3) ∈ gd.startIndexMap := by show (1 : Fin 3) ∈ [0, 1]; simp
  match a with
  | ⟨0, _⟩ =>
    show gd.start (ix3 h c d) idx 0 + gd.batchCoord (ix3 h c d) 0 + gd.offCoord (ix3 h c d) 0 = min (idx (ix3 h c (0 : Fin 2))).toInt.toNat 31
    rw [GatherDims.batchCoord_eq_zero _ _ _ List.not_mem_nil,
      GatherDims.offCoord_eq_zero _ _ _ (fun hm => ((GatherDims.mem_sKept _ _).mp hm).1 (by show (0 : Fin 3) ∈ [0, 1]; simp))]
    simp only [Nat.add_zero]
    unfold GatherDims.start
    rw [dif_pos m0]
    have hsi : gd.siIdx (ix3 h c d) ⟨List.idxOf (0 : Fin 3) gd.startIndexMap, List.idxOf_lt_length_iff.2 m0⟩
        = ix3 h c (0 : Fin 2) := by
      funext b; refine Fin.ext ?_
      match b with
      | ⟨0, _⟩ => rfl
      | ⟨1, _⟩ => rfl
      | ⟨2, _⟩ => rfl
    rw [hsi]
    rfl
  | ⟨1, _⟩ =>
    show gd.start (ix3 h c d) idx 1 + gd.batchCoord (ix3 h c d) 1 + gd.offCoord (ix3 h c d) 1 = min (idx (ix3 h c (1 : Fin 2))).toInt.toNat 255
    rw [GatherDims.batchCoord_eq_zero _ _ _ List.not_mem_nil,
      GatherDims.offCoord_eq_zero _ _ _ (fun hm => ((GatherDims.mem_sKept _ _).mp hm).1 (by show (1 : Fin 3) ∈ [0, 1]; simp))]
    simp only [Nat.add_zero]
    unfold GatherDims.start
    rw [dif_pos m1]
    have hsi : gd.siIdx (ix3 h c d) ⟨List.idxOf (1 : Fin 3) gd.startIndexMap, List.idxOf_lt_length_iff.2 m1⟩
        = ix3 h c (1 : Fin 2) := by
      funext b; refine Fin.ext ?_
      match b with
      | ⟨0, _⟩ => rfl
      | ⟨1, _⟩ => rfl
      | ⟨2, _⟩ => rfl
    rw [hsi]
    rfl
  | ⟨2, _⟩ =>
    show gd.start (ix3 h c d) idx 2 + gd.batchCoord (ix3 h c d) 2 + gd.offCoord (ix3 h c d) 2 = d.val
    rw [GatherDims.batchCoord_eq_zero _ _ _ List.not_mem_nil]
    have hs : gd.start (ix3 h c d) idx 2 = 0 := by
      unfold GatherDims.start
      rw [dif_neg (by show ¬ (2 : Fin 3) ∈ [0, 1]; simp)]
    rw [hs]
    show 0 + 0 + gd.offCoord (ix3 h c d) 2 = d.val
    simp only [Nat.zero_add]
    rfl

/-- The first component of the start index at `(h, c)` is the codebook number `h`: it is below 32, so nothing wraps. -/
theorem v13_apply (h : Fin 32) (c : Fin 16384) :
    val_main_v13 (F := Ideal) (ix3 h c (0 : Fin 1)) = BitVec.ofNat 32 h.val := by
  rw [val_main_v13_apply, val_main_v12_apply, val_main_v6_apply, val_main_v3_apply, val_main_v1_apply,
    val_main_v2_apply, val_main_v0_apply, val_main_c_apply]
  show Scalar.select (IntOp.cmpi .slt (BitVec.ofNat 32 h.val) 0#32) _ (BitVec.ofNat 32 h.val) = _
  have hn : IntOp.cmpi .slt (BitVec.ofNat 32 h.val) 0#32 = 0#1 := by revert h; decide
  rw [hn, select_zero]

/-- The second component at `(h, c)` is the index word of `(h, c)` when that word is nonnegative. -/
theorem v14_apply (x0 : IVec S32x16384 32) (h0 : ∀ i, 0 ≤ (x0 i).toInt) (h : Fin 32) (c : Fin 16384) :
    val_main_v14 (F := Ideal) x0 (ix3 h c (0 : Fin 1)) = x0 (ix2 h c) := by
  rw [val_main_v14_apply, val_main_v11_apply, val_main_v8_apply, val_main_v7_apply, val_main_c_1_apply]
  have e : idx_main_v14 (ix3 h c (0 : Fin 1)) = ix2 h c := funext fun a => Fin.ext (by
    match a with
    | ⟨0, _⟩ => rfl
    | ⟨1, _⟩ => rfl)
  rw [e]
  have hn : IntOp.cmpi .slt (x0 (ix2 h c)) 0#32 = 0#1 := eq_zero_of_ne_one (fun h1 => by
    have h2 := IntOp.cmpi_slt.1 h1
    have h3 := h0 (ix2 h c)
    have h4 : (0#32 : BitVec 32).toInt = 0 := by decide
    omega)
  rw [hn, select_zero]

/-- The start indices at `(h, c)`: first component. -/
theorem v15_0 (x0 : IVec S32x16384 32) (h : Fin 32) (c : Fin 16384) :
    val_main_v15 (F := Ideal) x0 (ix3 h c (0 : Fin 2)) = BitVec.ofNat 32 h.val := by
  unfold val_main_v15
  refine (concatenate_pair_apply_left (t := S32x16384x2) (s₁ := S32x16384x1) (s₂ := S32x16384x1) (2 : Fin 3) _ _
    Facts₀.concatenates_S32x16384x1_S32x16384x1_S32x16384x2_d2 (ix3 h c (0 : Fin 2)) rfl (ix3 h c (0 : Fin 1)) (fun b => by
    match b with
    | ⟨0, _⟩ => rfl
    | ⟨1, _⟩ => rfl
    | ⟨2, _⟩ => rfl)).trans ?_
  exact v13_apply h c

/-- The start indices at `(h, c)`: second component. -/
theorem v15_1 (x0 : IVec S32x16384 32) (h0 : ∀ i, 0 ≤ (x0 i).toInt) (h : Fin 32) (c : Fin 16384) :
    val_main_v15 (F := Ideal) x0 (ix3 h c (1 : Fin 2)) = x0 (ix2 h c) := by
  unfold val_main_v15
  refine (concatenate_pair_apply_right (t := S32x16384x2) (s₁ := S32x16384x1) (s₂ := S32x16384x1) (2 : Fin 3) _ _
    Facts₀.concatenates_S32x16384x1_S32x16384x1_S32x16384x2_d2 (ix3 h c (1 : Fin 2)) rfl rfl (ix3 h c (0 : Fin 1)) (fun b hb => by
    match b with
    | ⟨0, _⟩ => rfl
    | ⟨1, _⟩ => rfl
    | ⟨2, _⟩ => exact absurd rfl hb) (by show 0 + 1 = 1; rfl)).trans ?_
  exact v14_apply x0 h0 h c

theorem min_codebook : ∀ h : Fin 32, min (BitVec.ofNat 32 h.val).toInt.toNat 31 = h.val := by decide

/-- The gathered array at `(h, c, d)`: entry `d` of the centroid of codebook `h` that the index word of `(h, c)` names. -/
theorem v16_apply (x0 : IVec S32x16384 32) (x1 : FVec Ideal S32x256x128 .f32) (h0 : ∀ i, 0 ≤ (x0 i).toInt)
    (h : Fin 32) (c : Fin 16384) (d : Fin 128) :
    val_main_v16 (F := Ideal) x0 x1 (ix3 h c d)
      = x1 (ix3 h (⟨min (x0 (ix2 h c)).toInt.toNat 255, by omega⟩ : Fin 256) d) := by
  unfold val_main_v16
  rw [gather_apply]
  refine congrArg x1 (funext fun a => Fin.ext ?_)
  match a with
  | ⟨0, _⟩ =>
    show min (val_main_v15 (F := Ideal) x0 (ix3 h c (0 : Fin 2))).toInt.toNat 31 = h.val
    rw [v15_0]
    exact min_codebook h
  | ⟨1, _⟩ =>
    show min (val_main_v15 (F := Ideal) x0 (ix3 h c (1 : Fin 2))).toInt.toNat 255 = min (x0 (ix2 h c)).toInt.toNat 255
    rw [v15_1 x0 h0]
  | ⟨2, _⟩ => rfl

/-- THE REFERENCE'S RESULT over nonnegative index words is the gather. -/
theorem ref_eq (x0 : IVec S32x16384 32) (x1 : FVec Ideal S32x256x128 .f32) (h0 : ∀ i, 0 ≤ (x0 i).toInt) :
    val_main_v18 (F := Ideal) x0 x1 = Cert.Packed.G x0 x1 := by
  funext i
  have hi0 := idx2_lt0 i
  have hi1 := idx2_lt1 i
  rw [val_main_v18_apply, val_main_v17_apply]
  have ej : idx_main_v17 (idx_main_v18 i)
      = ix3 (⟨(i 1).val / 128, by omega⟩ : Fin 32) (i 0) (⟨(i 1).val % 128, Nat.mod_lt _ (by omega)⟩ : Fin 128) :=
    funext fun a => Fin.ext (by
      match a with
      | ⟨0, _⟩ => show ((i 0).val * 4096 + (i 1).val) / 128 % 32 = (i 1).val / 128; omega
      | ⟨1, _⟩ => show ((i 0).val * 4096 + (i 1).val) / 4096 = (i 0).val; omega
      | ⟨2, _⟩ => show ((i 0).val * 4096 + (i 1).val) % 128 = (i 1).val % 128; omega)
  rw [ej]
  exact v16_apply x0 x1 h0 (⟨(i 1).val / 128, by omega⟩ : Fin 32) (i 0) (⟨(i 1).val % 128, Nat.mod_lt _ (by omega)⟩ : Fin 128)

end Cert.ReferenceIdeal.RefValue

end
-- ==== Proof.lean ====
/-
  The reconstruction of product-quantised weights: `out[c, 128·h + d] = codebooks[h, indices[h, c], d]` for 32 codebooks of
  256 centroids of 128 entries and 16384 vectors.

  The kernel has no gather: per codebook it compares the index words with the column numbers `0 .. 255` to make a one-hot
  matrix and multiplies it with the codebook's table. The table is packed: each entry `x` is split into a leading part and
  a residual `x - (leading part)` stored side by side, and the kernel adds the two halves of the product. Over the extended
  reals a change of float format is the identity, so the leading part is `x` and the residual of a finite `x` is `0`; a
  one-hot row times a column is `1 · x` plus zeros `0 · y = 0`; so for an index word in `[0, 256)` the kernel's entry is the
  centroid's entry, as the reference's gather gives it. Outside `[0, 256)` the two differ (no column matches, the kernel
  gives `0`, while the reference wraps a negative word and keeps the position inside the axis), which is why the
  precondition asks `0 ≤ indices < 256` beside finite codebooks.

  The pieces: `Select` (a one-hot row against a table), `OneHot` (one codebook's stored block, entry by entry),
  `Block` (a block of the result and the whole result as one formula), `Payloads` (the eight stores tile the block),
  `KernelValue` (the 32 blocks tile the result), `Packed` (the packed codebooks; the formula is the gather),
  `Precond` (the precondition read back), `KernelRun` (the kernel's run ends at the gather), `RefValue` (the reference's
  run ends at the gather).
-/
import proofs.«429183_j3255585210642_3_alg».proof.Defs
import proofs.«429183_j3255585210642_3_alg».proof.Proof.Gen.Kernel
import proofs.«429183_j3255585210642_3_alg».proof.Proof.Gen.Kernel.Skeleton
import proofs.«429183_j3255585210642_3_alg».proof.Proof.Gen.Kernel.Launch
import proofs.«429183_j3255585210642_3_alg».proof.Proof.Gen.Kernel.Points
import proofs.«429183_j3255585210642_3_alg».proof.Proof.Gen.Kernel.Frame
import proofs.«429183_j3255585210642_3_alg».proof.Proof.Gen.KernelIdeal
import proofs.«429183_j3255585210642_3_alg».proof.Proof.Gen.KernelIdeal.Skeleton
import proofs.«429183_j3255585210642_3_alg».proof.Proof.Gen.KernelIdeal.Launch
import proofs.«429183_j3255585210642_3_alg».proof.Proof.Gen.KernelIdeal.Points
import proofs.«429183_j3255585210642_3_alg».proof.Proof.Gen.KernelIdeal.Frame
import proofs.«429183_j3255585210642_3_alg».proof.Proof.Gen.ReferenceIdeal
import proofs.«429183_j3255585210642_3_alg».proof.Proof.Gen.Pre_finite_inputs
import proofs.«429183_j3255585210642_3_alg».proof.Proof.Gen.KernelIdeal.Value
import proofs.«429183_j3255585210642_3_alg».proof.Proof.Gen.ReferenceIdeal.Run
import proofs.«429183_j3255585210642_3_alg».proof.Proof.Gen.ReferenceIdeal.Read
import proofs.«429183_j3255585210642_3_alg».proof.Proof.KernelRun
import proofs.«429183_j3255585210642_3_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: it runs, and writes neither argument. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the gather of the arguments: the kernel by its blocks of one-hot picks over the packed
    codebooks, the reference by its gather over the (unwrapped) pairs of codebook number and index word. -/
theorem algebraic : Cert.algebraic_KernelIdeal_ReferenceIdeal := by
  intro m ρ m' ρ' hpre hagree
  refine ⟨fun c => Cert.Packed.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run_gather m ρ hpre, ?_⟩
  refine (θ_run Cert.ReferenceIdeal.defs _ _).mono (fun _ h c => ⟨?_, (h c).2⟩)
    (Cert.ReferenceIdeal.Value.run (F := Ideal) m' ρ')
  obtain ⟨_, hr⟩ := Cert.Precond.decode _ _ (hpre c)
  rw [(h c).1, Cert.ReferenceIdeal.Read.val_main_v18_eq, (hagree c).1, (hagree c).2]
  exact Cert.ReferenceIdeal.RefValue.ref_eq _ _ (fun i => (hr i).1)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
